-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  main_v3
-- ==== Kernel.lean ====
abbrev S65536x1000 : Shape := ⟨2, ![65536, 1000]⟩
abbrev S65536 : Shape := ⟨1, ![65536]⟩
abbrev S65536x1 : Shape := ⟨2, ![65536, 1]⟩
abbrev S1x1 : Shape := ⟨2, ![1, 1]⟩
abbrev S1024x1000 : Shape := ⟨2, ![1024, 1000]⟩
abbrev S1024x1 : Shape := ⟨2, ![1024, 1]⟩
abbrev S1024 : Shape := ⟨1, ![1024]⟩
abbrev S1 : Shape := ⟨1, ![1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S65536_S65536x1 : S65536.ShapeCasts S65536x1
  inb_S1x1_S1x1_0_0 : ∀ a, (![0, 0] : Fin 2 → Nat) a + S1x1.size a ≤ S1x1.size a
  h_S1x1 : 0 < S1x1.numel
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S1000 : Shape := ⟨1, ![1000]⟩
abbrev S1x1000 : Shape := ⟨2, ![1, 1000]⟩
abbrev S65536x1 : Shape := ⟨2, ![65536, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .i32⟩
  | .hbm, ⟨3, _⟩ => ⟨S1x1000, .i32⟩
  | .hbm, ⟨4, _⟩ => ⟨S65536x1, .i32⟩
  | .hbm, ⟨5, _⟩ => ⟨S65536x1000, .i32⟩
  | .hbm, ⟨6, _⟩ => ⟨S65536x1000, .i32⟩
  | .hbm, ⟨7, _⟩ => ⟨S65536x1000, .i1⟩
  | .hbm, ⟨8, _⟩ => ⟨S65536x1000, .f32⟩
  | .hbm, ⟨9, _⟩ => ⟨S65536x1000, .f32⟩
  | .hbm, ⟨10, _⟩ => ⟨S_, .f32⟩
  | .hbm, ⟨11, _⟩ => ⟨S65536x1000, .f32⟩
  | .hbm, ⟨12, _⟩ => ⟨S65536x1000, .f32⟩
  | .hbm, ⟨13, _⟩ => ⟨S_, .f32⟩
  | .hbm, ⟨14, _⟩ => ⟨S65536x1000, .f32⟩
  | .hbm, ⟨15, _⟩ => ⟨S65536x1000, .f32⟩
  | .hbm, ⟨16, _⟩ => ⟨S_, .f32⟩
  | .hbm, ⟨17, _⟩ => ⟨S65536x1000, .f32⟩
  | .hbm, ⟨18, _⟩ => ⟨S65536x1000, .i1⟩
  | .hbm, ⟨19, _⟩ => ⟨S65536x1000, .f32⟩
  | .hbm, ⟨20, _⟩ => ⟨S_, .f32⟩
  | .hbm, ⟨21, _⟩ => ⟨S65536x1000, .f32⟩
  | .hbm, ⟨22, _⟩ => ⟨S65536x1000, .f32⟩
  | .hbm, ⟨23, _⟩ => ⟨S65536x1000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S65536_S65536x1_0 : S65536.BroadcastsInDim S65536x1 (![0] : Fin 1 → Fin S65536x1.rank)
  bcast_S1x1000_S65536x1000_0_1 : S1x1000.BroadcastsInDim S65536x1000 (![0, 1] : Fin 2 → Fin S65536x1000.rank)
  bcast_S65536x1_S65536x1000_0_1 : S65536x1.BroadcastsInDim S65536x1000 (![0, 1] : Fin 2 → Fin S65536x1000.rank)
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts₀]

class Facts : Prop extends Facts₀ where

variable [Facts]
-- ==== Proof.Loss.lean ====
/-
  The multi-class Huber-hinge loss, entry by entry, and the two ways its total is grouped.

  For the entry x of row n and class c the margin is x itself where c is the row's target class and the
  negative of x elsewhere; the entry's loss is max(0, 1 - margin)² where the margin is at least -1 and
  -4 · margin below that. The result is the total of the losses over all 65536 × 1000 entries, divided by 65536.

  One side takes the total in one sum over every entry. The other goes through the rows in 64 blocks of 1024
  consecutive rows: a block's contribution is the sum over its rows of each row's sum over the 1000 classes,
  the first block starts the total from zero and every later block adds to the total it finds. Addition on the
  extended reals is commutative and associative, infinities included, so the two totals are one number; no
  finiteness of the entries is used. The negative of x is written 0 - x on one side and -x on the other: the
  same extended real.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Hand.Loss

open Idealize.ShloMosaic Idealize.ShloMosaic.ValueIdx

/-! ## One entry's loss -/

/-- Is class `c` the target class `tg`? The comparison of the class number, as a 32-bit word, with the target word. -/
def hit (c : ℕ) (tg : BitVec 32) : BitVec 1 := IntOp.cmpi .eq (BitVec.ofNat 32 c) tg

/-- The margin of an entry: the entry where its class is the target, its negative (written `0 - x`) elsewhere. -/
def margin (h : BitVec 1) (x : Ideal .f32) : Ideal .f32 :=
  Scalar.select h x (FloatOps.subf (Scalar.ofBits .f32 0x00000000#32) x)

/-- The loss of a margin `m`: `max(0, 1 - m)²` where `m ≥ -1`, `-4 · m` below. -/
def huber (m : Ideal .f32) : Ideal .f32 :=
  Scalar.select (FloatOps.cmpf .oge m (Scalar.ofBits .f32 0xBF800000#32))
    (FloatOps.mulf (FloatOps.maximumf (Scalar.ofBits .f32 0x00000000#32) (FloatOps.subf (Scalar.ofBits .f32 0x3F800000#32) m))
      (FloatOps.maximumf (Scalar.ofBits .f32 0x00000000#32) (FloatOps.subf (Scalar.ofBits .f32 0x3F800000#32) m)))
    (FloatOps.mulf (Scalar.ofBits .f32 0xC0800000#32) m)

/-- The loss of the entry `x` of a row with target `tg`, at class `c`. -/
def entry (c : ℕ) (tg : BitVec 32) (x : Ideal .f32) : Ideal .f32 := huber (margin (hit c tg) x)

/-- The margin with the negative written `-x`: the same extended real, since `0 - x = -x`. -/
theorem margin_neg (h : BitVec 1) (x : Ideal .f32) : Scalar.select h x (FloatOps.hostNegf x) = margin h x := by
  unfold margin
  show Scalar.select h x (-x) = Scalar.select h x (Ideal.ofBits .f32 0x00000000#32 - x)
  rw [Ideal.ofBits_zero_f32, zero_sub]

/-! ## The whole array's loss, row by row -/

/-- The loss at row `n`, class `c` of an array `x` with targets `tg`. -/
def at_ (x : (⟨2, ![65536, 1000]⟩ : Shape).Idx → Ideal .f32) (tg : (⟨1, ![65536]⟩ : Shape).Idx → BitVec 32)
    (n : Fin 65536) (c : Fin 1000) : EReal :=
  entry c.val (tg (ix1 n)) (x (ix2 n c))

/-- A row's loss: the sum over the classes. -/
def rowLoss (x : (⟨2, ![65536, 1000]⟩ : Shape).Idx → Ideal .f32) (tg : (⟨1, ![65536]⟩ : Shape).Idx → BitVec 32)
    (n : Fin 65536) : EReal := ∑ c : Fin 1000, at_ x tg n c

/-- The total loss: the sum over the rows. Kept closed: it is opened by name where the sum is needed, and never
    unfolded when two terms that already agree are compared. -/
@[irreducible] def total (x : (⟨2, ![65536, 1000]⟩ : Shape).Idx → Ideal .f32) (tg : (⟨1, ![65536]⟩ : Shape).Idx → BitVec 32) : EReal :=
  ∑ n : Fin 65536, rowLoss x tg n

/-- The sum over every entry at once is the sum over the rows of the rows' sums. -/
theorem sum_entries (x : (⟨2, ![65536, 1000]⟩ : Shape).Idx → Ideal .f32) (tg : (⟨1, ![65536]⟩ : Shape).Idx → BitVec 32)
    (f : (⟨2, ![65536, 1000]⟩ : Shape).Idx → EReal) (hf : ∀ (n : Fin 65536) (c : Fin 1000), f (ix2 n c) = at_ x tg n c) :
    ∑ i, f i = total x tg := by
  unfold total rowLoss
  rw [sum_idx2]
  exact Finset.sum_congr rfl fun n _ => Finset.sum_congr rfl fun c _ => hf n c

/-! ## 64 blocks of 1024 rows are the 65536 rows -/

section Blocks
variable {M : Type*} [AddCommMonoid M]

/-- Row `r` of block `s`. -/
abbrev row (s : Fin 64) (r : Fin 1024) : Fin 65536 :=
  ⟨1024 * s.val + r.val, by have := s.isLt; have := r.isLt; omega⟩

/-- (block, row inside the block) ↦ row of the array: a bijection. -/
def rowsEquiv : Fin 64 × Fin 1024 ≃ Fin 65536 :=
  finProdFinEquiv.trans (finCongr (by norm_num : 64 * 1024 = 65536))

theorem rowsEquiv_apply (s : Fin 64) (r : Fin 1024) : rowsEquiv (s, r) = row s r :=
  Fin.ext (show r.val + 1024 * s.val = 1024 * s.val + r.val from Nat.add_comm _ _)

/-- A sum over the rows is the sum over the blocks of the sums over each block's rows. -/
theorem sum_rows (g : Fin 65536 → M) : ∑ n : Fin 65536, g n = ∑ s : Fin 64, ∑ r : Fin 1024, g (row s r) := by
  rw [← Equiv.sum_comp rowsEquiv g, Fintype.sum_prod_type]
  exact Finset.sum_congr rfl fun s _ => Finset.sum_congr rfl fun r _ => congrArg g (rowsEquiv_apply s r)

/-- A running total that starts from zero at the first block and adds each later block's contribution to what it
    finds is, after block `t`, the sum of the contributions of blocks `0 … t`. -/
theorem running_total (S b : ℕ → M) (h0 : S 0 = 0 + b 0) (hs : ∀ t, t + 1 < 64 → S (t + 1) = S t + b (t + 1))
    (t : ℕ) (ht : t < 64) : S t = ∑ s ∈ Finset.range (t + 1), b s := by
  induction t with
  | zero => rw [h0, zero_add, Finset.sum_range_one]
  | succ t ih => rw [hs t ht, ih (by omega), Finset.sum_range_succ _ (t + 1)]

/-- So after the last block it is the sum over all 64 blocks. -/
theorem running_total_last (S b : ℕ → M) (h0 : S 0 = 0 + b 0) (hs : ∀ t, t + 1 < 64 → S (t + 1) = S t + b (t + 1)) :
    S 63 = ∑ s : Fin 64, b s.val := by
  rw [running_total S b h0 hs 63 (by norm_num), Finset.sum_range]

end Blocks

/-- Block `s`'s contribution: the sum over its 1024 rows of the rows' losses. -/
def blockLoss (x : (⟨2, ![65536, 1000]⟩ : Shape).Idx → Ideal .f32) (tg : (⟨1, ![65536]⟩ : Shape).Idx → BitVec 32)
    (s : ℕ) : EReal :=
  if h : s < 64 then ∑ r : Fin 1024, rowLoss x tg (row ⟨s, h⟩ r) else 0

/-- The blocks' contributions add up to the total. -/
theorem sum_blockLoss (x : (⟨2, ![65536, 1000]⟩ : Shape).Idx → Ideal .f32) (tg : (⟨1, ![65536]⟩ : Shape).Idx → BitVec 32) :
    ∑ s : Fin 64, blockLoss x tg s.val = total x tg := by
  unfold total
  rw [sum_rows]
  exact Finset.sum_congr rfl fun s _ => by unfold blockLoss; rw [dif_pos s.isLt]

/-- The result: the total divided by 65536, the one entry of a rank-0 array. -/
def result (x : (⟨2, ![65536, 1000]⟩ : Shape).Idx → Ideal .f32) (tg : (⟨1, ![65536]⟩ : Shape).Idx → BitVec 32) :
    (⟨0, ![]⟩ : Shape).Idx → Ideal .f32 :=
  Host.divf (F := Ideal) (fun _ => total x tg) (constant (F := Ideal) ⟨0, ![]⟩ .f32 0x47800000#32)

end Cert.Hand.Loss

end
-- ==== Proof.Lanes.lean ====
/-
  A block of 1024 rows and 1000 classes, summed: each row over its classes, then the rows' sums over the rows,
  added to a running one-by-one total.

  The sum of row r over the classes reads the block at (r, c) for c = 0 … 999; written as a 1024 × 1 column, the
  column's sum over the rows reads it at (r, 0); the one-entry result, written 1 × 1, is added to the running total's
  one entry. So the new total is the old one plus the double sum over rows and classes of the block's entries.
  Also here: a 1024 × 1 column of words broadcast along the classes reads (r, 0) at every (r, c), and the class
  number along the second axis reads c at (r, c).
-/
import Idealize.ShloMosaic.PureOps.Ideal.Laws
import Idealize.ShloMosaic.Lib.ValueIdx
import Idealize.ShloMosaic.Lib.Pipeline.Value

noncomputable section

open scoped BigOperators

namespace Cert.Hand.Lanes

open Idealize.ShloMosaic Idealize.ShloMosaic.ValueIdx

/-- A row's sum over the classes: the reduced index r with the class c put back on axis 1 is (r, c). -/
theorem rowSum_apply (v : FVec Ideal ⟨2, ![1024, 1000]⟩ .f32) (h : Shape.Reduces ⟨2, ![1024, 1000]⟩ [1] ⟨1, ![1024]⟩)
    (hφ : FKind.Formats .f32) (hacc : (0x00000000#32 : BitVec 32) = 0x00000000#32) (r : Fin 1024) :
    multiReduction .add [1] ⟨1, ![1024]⟩ v 0x00000000#32 h hφ hacc (ix1 r) = ∑ c : Fin 1000, v (ix2 r c) := by
  refine (Ideal.multiReduction_add_single v 0x00000000#32 h hφ hacc (ix1 r)).trans ?_
  refine Finset.sum_congr rfl fun c _ => congrArg v ?_
  funext a
  match a with
  | ⟨0, _⟩ => exact Fin.ext rfl
  | ⟨1, _⟩ => exact Fin.ext rfl

/-- A column's sum over the rows: the one reduced index with the row r put back on axis 0 is (r, 0). -/
theorem colSum_apply (v : FVec Ideal ⟨2, ![1024, 1]⟩ .f32) (h : Shape.Reduces ⟨2, ![1024, 1]⟩ [0] ⟨1, ![1]⟩)
    (hφ : FKind.Formats .f32) (hacc : (0x00000000#32 : BitVec 32) = 0x00000000#32) :
    multiReduction .add [0] ⟨1, ![1]⟩ v 0x00000000#32 h hφ hacc (ix1 0) = ∑ r : Fin 1024, v (ix2 r 0) := by
  refine (Ideal.multiReduction_add_single v 0x00000000#32 h hφ hacc (ix1 0)).trans ?_
  refine Finset.sum_congr rfl fun r _ => congrArg v ?_
  funext a
  match a with
  | ⟨0, _⟩ => exact Fin.ext rfl
  | ⟨1, _⟩ => exact Fin.ext rfl

section Layout
variable {α : Type}

/-- 1024 values written as a 1024 × 1 column: entry (r, 0) is value r. -/
theorem cast_col (v : (⟨1, ![1024]⟩ : Shape).Idx → α) (h : (⟨1, ![1024]⟩ : Shape).ShapeCasts ⟨2, ![1024, 1]⟩) (r : Fin 1024) :
    shapeCast ⟨2, ![1024, 1]⟩ v h (ix2 r 0) = v (ix1 r) :=
  shapeCast_apply v h (ix2 r 0) (ix1 r) (by
    rw [Shape.rowMajor_val_one, Shape.rowMajor_val_two]
    show r.val = r.val * 1 + 0
    omega)

/-- One value written 1 × 1. -/
theorem cast_one (v : (⟨1, ![1]⟩ : Shape).Idx → α) (h : (⟨1, ![1]⟩ : Shape).ShapeCasts ⟨2, ![1, 1]⟩) :
    shapeCast ⟨2, ![1, 1]⟩ v h (ix2 0 0) = v (ix1 0) :=
  shapeCast_apply v h (ix2 0 0) (ix1 0) (by
    rw [Shape.rowMajor_val_one, Shape.rowMajor_val_two]
    rfl)

/-- A 1024 × 1 column broadcast along the classes: entry (r, c) is the column's entry (r, 0). -/
theorem bcast_col (v : (⟨2, ![1024, 1]⟩ : Shape).Idx → α) (h : (⟨2, ![1024, 1]⟩ : Shape).Broadcasts ⟨2, ![1024, 1000]⟩)
    (r : Fin 1024) (c : Fin 1000) :
    broadcastTo ⟨2, ![1024, 1000]⟩ v h (ix2 r c) = v (ix2 r 0) :=
  broadcastTo_apply v h (ix2 r c) (ix2 r 0) fun a => match a with
    | ⟨0, _⟩ => by show r.val = if (1024 : Nat) = 1 then 0 else r.val; rw [if_neg (by decide)]
    | ⟨1, _⟩ => by show 0 = if (1 : Nat) = 1 then 0 else c.val; rw [if_pos rfl]

end Layout

/-- The class number along the second axis: entry (r, c) is the word c. -/
theorem iota_col (h : (⟨2, ![1024, 1000]⟩ : Shape).Iotas .tc 32 [1]) (r : Fin 1024) (c : Fin 1000) :
    iota .tc ⟨2, ![1024, 1000]⟩ 32 [1] h (ix2 r c) = BitVec.ofNat 32 c.val :=
  iota_single_apply .tc ⟨2, ![1024, 1000]⟩ 32 1 h (ix2 r c)

/-- The running total after a block: the total before plus the double sum of the block's entries. -/
theorem blockSum (L : FVec Ideal ⟨2, ![1024, 1000]⟩ .f32) (acc : FVec Ideal ⟨2, ![1, 1]⟩ .f32)
    (hs : (⟨2, ![1, 1]⟩ : Shape).ShapeCasts ⟨2, ![1, 1]⟩)
    (h1 : Shape.Reduces ⟨2, ![1024, 1000]⟩ [1] ⟨1, ![1024]⟩) (hφ1 : FKind.Formats .f32)
    (ha1 : (0x00000000#32 : BitVec 32) = 0x00000000#32)
    (hc1 : (⟨1, ![1024]⟩ : Shape).ShapeCasts ⟨2, ![1024, 1]⟩)
    (h2 : Shape.Reduces ⟨2, ![1024, 1]⟩ [0] ⟨1, ![1]⟩) (hφ2 : FKind.Formats .f32)
    (ha2 : (0x00000000#32 : BitVec 32) = 0x00000000#32)
    (hc2 : (⟨1, ![1]⟩ : Shape).ShapeCasts ⟨2, ![1, 1]⟩) :
    addf (shapeCast ⟨2, ![1, 1]⟩ acc hs)
        (shapeCast ⟨2, ![1, 1]⟩ (multiReduction .add [0] ⟨1, ![1]⟩
          (shapeCast ⟨2, ![1024, 1]⟩ (multiReduction .add [1] ⟨1, ![1024]⟩ L 0x00000000#32 h1 hφ1 ha1) hc1)
          0x00000000#32 h2 hφ2 ha2) hc2) (ix2 0 0)
      = acc (ix2 0 0) + ∑ r : Fin 1024, ∑ c : Fin 1000, L (ix2 r c) := by
  rw [addf_apply, shapeCast_self, cast_one, colSum_apply]
  refine congrArg (acc (ix2 0 0) + ·) (Finset.sum_congr rfl fun r _ => ?_)
  rw [cast_col, rowSum_apply]

end Cert.Hand.Lanes

end
-- ==== Proof.KernelValue.lean ====
/-
  What the kernel's one-by-one output block holds after each grid point, and so what its result is.

  Grid point t works on rows 1024 t … 1024 t + 1023: it reads those rows of the array and of the target column,
  computes every entry's loss, sums each row over the classes and the rows' sums over the rows, and adds that to
  the one-entry total in the output block. The first point first clears the total. The output block is written
  back once, after the last point; the program then reads it as a scalar and divides by 65536.
-/
import proofs.«177276_j62036507623929_1_alg».proof.Defs
import proofs.«177276_j62036507623929_1_alg».proof.Proof.Gen.KernelIdeal.Frame
import proofs.«177276_j62036507623929_1_alg».proof.Proof.Loss
import proofs.«177276_j62036507623929_1_alg».proof.Proof.Lanes
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.LossValue

open Cert.KernelIdeal Cert.KernelIdeal.Gen Cert.Hand

/-! ## What one grid point leaves in the output block -/

section Cases
variable {F : FTy → Type} [FloatOps F]

theorem hz : (![0, 0] : Fin 2 → Nat) = fun _ => 0 := funext fun a => by fin_cases a <;> rfl

/-- A later point: the block holds the total `xo` it found plus this point's contribution. -/
theorem out_B (c : Dev nD) (i : grid0.Coords) (a1 : Memref sig .tc .vmem S1024x1000 .f32) (h1 : a1.IsWhole)
    (a2 : Memref sig .tc .vmem S1024x1 .i32) (h2 : a2.IsWhole) (a3 : Memref sig .tc .vmem S1x1 .f32) (h3 : a3.IsWhole)
    (hc : ¬cond0_0 i) (x0 : Vec F S1024x1000 .f32) (x1 : Vec F S1024x1 .i32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S1024x1000) hz,
    View.ld_unit_zero (S := S1024x1) hz, View.ld_unit_zero (S := S1x1) hz]

/-- The first point: the block is cleared, read back, and holds zero plus this point's contribution. -/
theorem out_A (c : Dev nD) (i : grid0.Coords) (a1 : Memref sig .tc .vmem S1024x1000 .f32) (h1 : a1.IsWhole)
    (a2 : Memref sig .tc .vmem S1024x1 .i32) (h2 : a2.IsWhole) (a3 : Memref sig .tc .vmem S1x1 .f32) (h3 : a3.IsWhole)
    (hc : cond0_0 i) (x0 : Vec F S1024x1000 .f32) (x1 : Vec F S1024x1 .i32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x1000) hz,
    View.ld_unit_zero (S := S1024x1) hz, View.ld_unit_zero (S := S1x1) hz]

end Cases

/-! ## A point's contribution, over the extended reals -/

/-- The new total's one entry: the total found plus the sum, over the block's rows and the classes, of the loss of
    each entry against its row's target. -/
theorem pay2_at (x0 : Vec Ideal S1024x1000 .f32) (x1 : Vec Ideal S1024x1 .i32) (acc : Vec Ideal S1x1 .f32) :
    k0_pay2 (F := Ideal) x0 x1 acc (ix2 0 0)
      = acc (ix2 0 0) + ∑ r : Fin 1024, ∑ c : Fin 1000, Loss.entry c.val (x1 (ix2 r 0)) (x0 (ix2 r c)) := by
  unfold k0_pay2
  refine (Lanes.blockSum _ acc _ _ _ _ _ _ _ _ _).trans ?_
  refine congrArg (acc (ix2 0 0) + ·) (Finset.sum_congr rfl fun r _ => Finset.sum_congr rfl fun c _ => ?_)
  show Loss.huber (Loss.margin (IntOp.cmpi .eq (iota .tc S1024x1000 32 [1] iota_S1024x1000_d1_w32 (ix2 r c))
      (broadcastTo S1024x1000 (shapeCast S1024x1 x1 shapeCasts_S1024x1_S1024x1) broadcasts_S1024x1_S1024x1000 (ix2 r c)))
      (x0 (ix2 r c))) = _
  rw [Lanes.iota_col, Lanes.bcast_col, shapeCast_self]
  rfl

/-- The cleared block's one entry is zero. -/
theorem pay1_at : k0_pay1 (F := Ideal) (ix2 0 0) = 0 := by
  show Ideal.ofBits .f32 0x00000000#32 = 0
  exact Ideal.ofBits_zero_f32

/-! ## The rows a point reads -/

section Run
variable (m : (ℓ : Loc nD τ sig) → Buf (Elt Ideal) ℓ) (ρ : Dev nD → PrngReg)

/-- The array, the targets, and the two blocks point `t` reads of them, each at its literal shape. -/
abbrev X (c : Dev nD) : Vec Ideal S65536x1000 .f32 := m ((c : Thread nD τ).loc main_arg0)
abbrev TG (c : Dev nD) : Vec Ideal S65536 .i32 := m ((c : Thread nD τ).loc main_arg1)
abbrev xblk (c : Dev nD) (t : Fin cfg0.N) : Vec Ideal S1024x1000 .f32 := iblk m c 0 t
abbrev tblk (c : Dev nD) (t : Fin cfg0.N) : Vec Ideal S1024x1 .i32 := iblk m c 1 t

/-- Both input windows move down the rows with the point and stay at column block 0; the output window never moves. -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_out : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The target column the kernel is given: the targets written as a 65536 × 1 column. -/
theorem V_tgt (c : Dev nD) :
    (V m c main_v0 : S65536x1.Idx → Elt Ideal .i32) = shapeCast S65536x1 (TG m c) shapeCasts_S65536_S65536x1 := by
  show StableHlo.after hostOps0 (fun b => m (c, b)) (Proc.devRef .tc main_v0) = _
  after_results
  rfl

/-- Entry (r, k) of point `t`'s block of the array is entry (1024 t + r, k) of the array. -/
theorem xblk_at (c : Dev nD) (t : Fin cfg0.N) (r : Fin 1024) (k : Fin 1000) (n : Fin 65536)
    (hn : n.val = 1024 * t.val + r.val) : xblk m c t (ix2 r k) = X m c (ix2 n k) := by
  show iblk m c 0 t (ix2 r k) = _
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 2) * 1024 + 1 * r.val = n.val; rw [(idx_rows0 t).1, hn]; omega
  | ⟨1, _⟩ => show win0_0.index t (1 : Fin 2) * 1000 + 1 * k.val = k.val; rw [(idx_rows0 t).2]; omega

/-- Entry (r, 0) of point `t`'s block of the target column is the target of row 1024 t + r. -/
theorem tblk_at (c : Dev nD) (t : Fin cfg0.N) (r : Fin 1024) (n : Fin 65536)
    (hn : n.val = 1024 * t.val + r.val) : tblk m c t (ix2 r 0) = TG m c (ix1 n) := by
  show iblk m c 1 t (ix2 r 0) = _
  unfold iblk
  rw [View.read_apply]
  show V m c main_v0 _ = _
  rw [V_tgt]
  refine shapeCast_apply _ _ _ (ix1 n) ?_
  rw [Shape.rowMajor_val_one, Shape.rowMajor_val_two]
  show n.val = (win0_1.index t (0 : Fin 2) * 1024 + 1 * r.val) * 1 + (win0_1.index t (1 : Fin 2) * 1 + 1 * 0)
  rw [(idx_rows1 t).1, (idx_rows1 t).2, hn]
  omega

/-- Point `t`'s contribution is block `t`'s loss. -/
theorem contrib (c : Dev nD) (t : Fin cfg0.N) :
    ∑ r : Fin 1024, ∑ k : Fin 1000, Loss.entry k.val (tblk m c t (ix2 r 0)) (xblk m c t (ix2 r k))
      = Loss.blockLoss (X m c) (TG m c) t.val := by
  have ht : t.val < 64 := lt_of_lt_of_eq t.isLt (show cfg0.N = 64 from N_0)
  unfold Loss.blockLoss
  rw [dif_pos ht]
  refine Finset.sum_congr rfl fun r _ => ?_
  unfold Loss.rowLoss
  refine Finset.sum_congr rfl fun k _ => ?_
  rw [tblk_at m c t r (Loss.row ⟨t.val, ht⟩ r) rfl, xblk_at m c t r k (Loss.row ⟨t.val, ht⟩ r) rfl]
  rfl

/-! ## The running total -/

/-- After point `n` the output block's one entry is the sum of the losses of blocks 0 … n: the first point leaves
    zero plus its block's loss, every later point adds its block's loss to what it finds. -/
theorem outsAt_eq (c : Dev nD) : ∀ (n : ℕ) (h : n < cfg0.N),
    outsAt0 m c n h (ix2 0 0) = ∑ s ∈ Finset.range (n + 1), Loss.blockLoss (X m c) (TG m c) s
  | 0, h => by
    refine (congrFun ((outsAt0_A m c ⟨0, h⟩ rfl).trans
      (out_A (F := Ideal) c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) ((hcond0_0 ⟨0, h⟩).mpr rfl) (xblk m c ⟨0, h⟩) (tblk m c ⟨0, h⟩))) (ix2 0 0)).trans ?_
    refine (pay2_at (xblk m c ⟨0, h⟩) (tblk m c ⟨0, h⟩) (k0_pay1 (F := Ideal))).trans ?_
    rw [pay1_at, zero_add, Finset.sum_range_one]
    exact contrib m c ⟨0, h⟩
  | n + 1, h => by
    have hN : cfg0.N = 64 := N_0
    have hB : ¬(⟨n + 1, h⟩ : Fin cfg0.N).val % 64 = 0 := by dsimp only; omega
    refine (congrFun ((outsAt0_B m c ⟨n + 1, h⟩ hB).trans
      (out_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hB ((hcond0_0 ⟨n + 1, h⟩).mp hh)) (xblk m c ⟨n + 1, h⟩)
        (tblk m c ⟨n + 1, h⟩) (outsAt0 m c n (Nat.lt_of_succ_lt h)))) (ix2 0 0)).trans ?_
    refine (pay2_at (xblk m c ⟨n + 1, h⟩) (tblk m c ⟨n + 1, h⟩) (outsAt0 m c n (Nat.lt_of_succ_lt h))).trans ?_
    rw [outsAt_eq c n, contrib m c ⟨n + 1, h⟩, Finset.sum_range_succ _ (n + 1)]

theorem last_lt : 63 < cfg0.N := by rw [show cfg0.N = 64 from N_0]; decide

/-- The result array's contents: its one entry is the total loss. -/
abbrev resArr (c : Dev nD) : Buf (Elt Ideal) ((c : Thread nD τ).loc main_v1) := fun _ => Loss.total (X m c) (TG m c)

/-- A one-by-one array has the one index (0, 0). -/
theorem idx11 (j : S1x1.Idx) : j = ix2 0 0 := by
  funext a
  apply Fin.ext
  match a with
  | ⟨0, _⟩ => have := idx2_lt0 j; show (j 0).val = 0; omega
  | ⟨1, _⟩ => have := idx2_lt1 j; show (j 1).val = 0; omega

/-- After the last point the output block holds the total loss. -/
theorem outsAt_last (c : Dev nD) : outsAt0 m c 63 last_lt = resArr m c := by
  funext j
  rw [idx11 j, outsAt_eq m c 63 last_lt, Finset.sum_range]
  exact Loss.sum_blockLoss (X m c) (TG m c)

/-! ## The result array, and the result -/

/-- The one write-back, after the last point, writes the total loss. -/
theorem flushed_eq (c : Dev nD) (t : Fin cfg0.N) (hf : (cfg0.win 2).flush t = true) :
    (dats m 0 c).flushed 2 t = ((cfg0.win 2).blk t).view.read (Elt Ideal) (resArr m c) := by
  have hN : cfg0.N = 64 := N_0
  have h63 : t.val = 63 := by have := (flush0_2 t).mp hf; have := t.isLt; omega
  have e : outsAt0 m c t.val t.isLt = resArr m c := by
    obtain ⟨n, hn⟩ := t
    dsimp only at h63
    subst h63
    exact outsAt_last m c
  show (cfg0.win 2).cut (grid0.coords t) ((dats m 0 c).after 2 t) = _
  rw [after0_2, e]
  funext j
  rfl

/-- An index of the result array is in a point's block iff each coordinate is in the block's range on its axis. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v1).slice (win0_2.rect t)).set ↔ _
  rw [View.set_slice_whole, Rect.mem_set_unit]
  exact Iff.rfl

/-- The last point's block is the whole one-by-one array. -/
theorem cover (i : S1x1.Idx) : ∃ t : Fin cfg0.N, (cfg0.win 2).flush t = true ∧ i ∈ ((cfg0.win 2).blk t).view.set := by
  refine ⟨⟨63, last_lt⟩, (flush0_2 _).mpr rfl, ?_⟩
  rw [mem_blk]
  obtain ⟨e0, e1⟩ := idx_out ⟨63, last_lt⟩
  have h0 := idx2_lt0 i
  have h1 := idx2_lt1 i
  intro a
  match a with
  | ⟨0, _⟩ => show win0_2.index ⟨63, last_lt⟩ (0 : Fin 2) * 1 ≤ (i 0).val ∧ (i 0).val < win0_2.index ⟨63, last_lt⟩ (0 : Fin 2) * 1 + 1; omega
  | ⟨1, _⟩ => show win0_2.index ⟨63, last_lt⟩ (1 : Fin 2) * 1 ≤ (i 1).val ∧ (i 1).val < win0_2.index ⟨63, last_lt⟩ (1 : Fin 2) * 1 + 1; omega

/-- So the result array ends holding the total loss. -/
theorem final_out (c : Dev nD) : (dats m 0 c).arrAt 2 cfg0.N = resArr m c :=
  (dats m 0 c).arrAt_eq_of_cover 2 (resArr m c) (fun t hf => flushed_eq m c t hf) (fun i => cover i)

/-- The lines after the kernel read the result array as a scalar and divide it by 65536. -/
theorem tail_eq (c : Dev nD) :
    Pipeline.afterTail₀ cfgs (dats m) 0 (V0 m) [hostOps1] c main_v3 = Loss.result (X m c) (TG m c) := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 2).trans
    (final_out m c)
  exact congrArg (fun A : Buf (Elt Ideal) ((c : Thread nD τ).loc main_v1) =>
    Host.divf (F := Ideal) (fun i => shapeCast S_ A shapeCasts_S1x1_S_ i) (constant (F := Ideal) S_ .f32 0x47800000#32)) e

/-- The kernel's program, run: its result is the total loss over 65536, and its arguments end unchanged. -/
theorem run : θ_run defs (onTc (τ := τ) (main (F := Ideal))) ⟨m, fun _ => 0, ρ⟩ fun r => ∀ c : Dev nD,
      r.2.mem ((c.tc : Thread nD τ).loc main_v3) = Loss.result (X m c) (TG m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Run

end Cert.KernelIdeal.LossValue

end
-- ==== Proof.RefValue.lean ====
/-
  The reference's result is the total loss over 65536.

  Entry (n, c) of the reference's loss array: the class numbers 0 … 999 broadcast down the rows are compared with
  row n's target broadcast along the classes, so the comparison at (n, c) is "c is row n's target"; the margin is
  the entry where that holds and its negative elsewhere; the loss of the margin follows. The reference then sums
  every entry from zero and divides by 65536.
-/
import proofs.«177276_j62036507623929_1_alg».proof.Defs
import proofs.«177276_j62036507623929_1_alg».proof.Proof.Gen.ReferenceIdeal.Run
import proofs.«177276_j62036507623929_1_alg».proof.Proof.Gen.ReferenceIdeal.Read
import proofs.«177276_j62036507623929_1_alg».proof.Proof.Loss

noncomputable section

namespace Cert.ReferenceIdeal.LossValue

open Cert.ReferenceIdeal Cert.ReferenceIdeal.Read Idealize.ShloMosaic Idealize.ShloMosaic.ValueIdx Cert.Hand

variable (x0 : (⟨S65536x1000, .f32⟩ : BufTy).Contents (Elt Ideal)) (x1 : (⟨S65536, .i32⟩ : BufTy).Contents (Elt Ideal))

/-- The target read at (n, c), through the two broadcasts, is row n's target. -/
theorem tgt_idx (n : Fin 65536) (c : Fin 1000) : idx_main_v2 (idx_main_v4 (ix2 n c)) = ix1 n := by
  funext a
  match a with
  | ⟨0, _⟩ => rfl

/-- The margin at (n, c). -/
theorem margin_at (n : Fin 65536) (c : Fin 1000) :
    val_main_v7 (F := Ideal) x0 x1 (ix2 n c) = Loss.margin (Loss.hit c.val (x1 (ix1 n))) (x0 (ix2 n c)) := by
  rw [val_main_v7_apply, val_main_v6_apply, val_main_v5_apply, val_main_v3_apply, val_main_v1_apply, val_main_v0_apply,
    val_main_v4_apply, val_main_v2_apply, tgt_idx]
  exact Loss.margin_neg _ _

/-- The loss at (n, c). -/
theorem loss_at (n : Fin 65536) (c : Fin 1000) :
    val_main_v17 (F := Ideal) x0 x1 (ix2 n c) = Loss.at_ x0 x1 n c := by
  rw [val_main_v17_apply, val_main_v13_apply, val_main_v14_apply, val_main_v16_apply, val_main_v11_apply,
    val_main_v9_apply, val_main_v12_apply, val_main_v15_apply, val_main_v10_apply, val_main_v8_apply,
    val_main_cst_apply, val_main_cst_0_apply, val_main_cst_1_apply, val_main_cst_2_apply, margin_at]
  rfl

/-- The reference's result: zero plus the sum over every entry, over 65536. -/
theorem value_eq : val_main_v19 (F := Ideal) x0 x1 = Loss.result x0 x1 := by
  funext i
  rw [val_main_v19_apply, val_main_v18_apply, val_main_cst_3_apply, Loss.sum_entries x0 x1 _ (loss_at x0 x1)]
  show FloatOps.hostDivf (FloatOps.ofBits (F := Ideal) .f32 0x00000000#32 + Loss.total x0 x1) _ = _
  rw [Ideal.ofBits_def, Ideal.ofBits_zero_f32, zero_add]
  rfl

end Cert.ReferenceIdeal.LossValue

end
-- ==== Proof.lean ====
/-
  The kernel and the reference compute one number: the multi-class Huber-hinge loss of a 65536 × 1000 array against
  65536 target classes, summed over every entry and divided by 65536.

  For the entry x of row n at class c the margin is x where c is row n's target and -x elsewhere, and the entry's
  loss is max(0, 1 - margin)² where the margin is at least -1, -4 · margin below. The reference builds the whole loss
  array and sums it in one sum from zero. The kernel walks the rows in 64 blocks of 1024: at each block it sums each
  row over the classes, sums the rows' sums, and adds that to a one-entry running total that the first block starts
  from zero; after the last block the total is written out, read as a scalar and divided by 65536.

  Over the extended reals the two are equal because addition there is commutative and associative, the infinities
  included, so the one sum over all entries regroups into blocks, rows and classes (Proof/Loss.lean); the kernel's
  0 - x is the reference's -x; every constant is the same word on both sides. Finiteness of the entries is not used.
  The kernel's side is read off its run grid point by grid point (Proof/KernelValue.lean, over Proof/Lanes.lean), the
  reference's off its run operation by operation (Proof/RefValue.lean). Nothing was rewritten between the kernel and
  its idealization, so that claim is trivial; the three frame claims are the programs' runs with the results dropped.
-/
import proofs.«177276_j62036507623929_1_alg».proof.Defs
import proofs.«177276_j62036507623929_1_alg».proof.Proof.Gen.Kernel
import proofs.«177276_j62036507623929_1_alg».proof.Proof.Gen.Kernel.Skeleton
import proofs.«177276_j62036507623929_1_alg».proof.Proof.Gen.Kernel.Launch
import proofs.«177276_j62036507623929_1_alg».proof.Proof.Gen.Kernel.Points
import proofs.«177276_j62036507623929_1_alg».proof.Proof.Gen.Kernel.Frame
import proofs.«177276_j62036507623929_1_alg».proof.Proof.Gen.KernelIdeal
import proofs.«177276_j62036507623929_1_alg».proof.Proof.Gen.KernelIdeal.Skeleton
import proofs.«177276_j62036507623929_1_alg».proof.Proof.Gen.KernelIdeal.Launch
import proofs.«177276_j62036507623929_1_alg».proof.Proof.Gen.KernelIdeal.Points
import proofs.«177276_j62036507623929_1_alg».proof.Proof.Gen.KernelIdeal.Frame
import proofs.«177276_j62036507623929_1_alg».proof.Proof.Gen.ReferenceIdeal
import proofs.«177276_j62036507623929_1_alg».proof.Proof.Gen.ReferenceIdeal.Run
import proofs.«177276_j62036507623929_1_alg».proof.Proof.Gen.ReferenceIdeal.Read
import proofs.«177276_j62036507623929_1_alg».proof.Proof.Gen.Pre_finite_inputs
import proofs.«177276_j62036507623929_1_alg».proof.Proof.KernelValue
import proofs.«177276_j62036507623929_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree both programs end at the total loss over 65536. -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.LossValue.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
